-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16384x1 : Shape := ⟨3, ![1024, 16384, 1]⟩
abbrev S1024x16384 : Shape := ⟨2, ![1024, 16384]⟩
abbrev S_ : Shape := ⟨0, ![]⟩

class Facts : Prop where
  bcast_S_S1024x16384x1 : S_.BroadcastsInDim S1024x16384x1 (![] : Fin 0 → Fin S1024x16384x1.rank)
  reducesTo_S1024x16384x1_S_d0_1_2 : S1024x16384x1.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_

variable [Facts]

def fn {F : FTy → Type} [FloatOps F] (main_arg0 : FVec F S1024x16384x1 .f32) (main_arg1 : IVec S1024x16384 32) : IVec S_ 1 :=
  let main_v0 : FVec F S1024x16384x1 .f32 := Host.absf main_arg0
  let main_cst : FVec F S_ .f32 := constant S_ .f32 0x7F800000#32
  let main_v1 : FVec F S1024x16384x1 .f32 := broadcastInDim S1024x16384x1 ![] bcast_S_S1024x16384x1 main_cst
  let main_v2 : IVec S1024x16384x1 1 := cmpf .olt main_v0 main_v1
  let main_c : IVec S_ 1 := constantI S_ 1 1#1
  let main_v3 : IVec S_ 1 := (fun x v => Host.reduce IntOp.andi x v reducesTo_S1024x16384x1_S_d0_1_2 h_S_) main_v2 main_c
  let main_c_0 : IVec S_ 32 := constantI S_ 32 0#32
  let main_v4 : IVec S1024x16384 32 := broadcastInDim S1024x16384 ![] bcast_S_S1024x16384 main_c_0
  let main_v5 : IVec S1024x16384 1 := cmpi .sge main_arg1 main_v4
  let main_c_1 : IVec S_ 32 := constantI S_ 32 16384#32
  let main_v6 : IVec S1024x16384 32 := broadcastInDim S1024x16384 ![] bcast_S_S1024x16384 main_c_1
  let main_v7 : IVec S1024x16384 1 := cmpi .slt main_arg1 main_v6
  let main_v8 : IVec S1024x16384 1 := andi main_v5 main_v7
  let main_c_2 : IVec S_ 1 := constantI S_ 1 1#1
  let main_v9 : IVec S_ 1 := (fun x v => Host.reduce IntOp.andi x v reducesTo_S1024x16384_S_d0_1 h_S_) main_v8 main_c_2
  let main_v10 : IVec S_ 1 := andi main_v3 main_v9
  main_v10
-- ==== Kernel.lean ====
abbrev S1024x16384x1 : Shape := ⟨3, ![1024, 16384, 1]⟩
abbrev S1024x16384 : Shape := ⟨2, ![1024, 16384]⟩
abbrev S1024x1x16384 : Shape := ⟨3, ![1024, 1, 16384]⟩
abbrev S8x1x16384 : Shape := ⟨3, ![8, 1, 16384]⟩
abbrev S8x16384 : Shape := ⟨2, ![8, 16384]⟩
abbrev S8x128x128 : Shape := ⟨3, ![8, 128, 128]⟩
abbrev S8x1x128 : Shape := ⟨3, ![8, 1, 128]⟩
abbrev S8x128 : Shape := ⟨2, ![8, 128]⟩
abbrev S8x128x128x1 : Shape := ⟨4, ![8, 128, 128, 1]⟩

abbrev nBuf : Space → Nat
  | .hbm => 6
  | .vmem => 6
  | .smem => 0
  | _ => 0

abbrev bufTy : (tb : Table) → Fin (tcTables nBuf tb) → BufTy
  | .hbm, ⟨0, _⟩ => ⟨S1024x16384x1, .f32⟩
  | .hbm, ⟨1, _⟩ => ⟨S1024x16384, .i32⟩
  | .hbm, ⟨2, _⟩ => ⟨S1024x1x16384, .f32⟩
  | .hbm, ⟨3, _⟩ => ⟨S1024x1x16384, .i32⟩
  | .hbm, ⟨4, _⟩ => ⟨S1024x1x16384, .f32⟩
  | .hbm, ⟨5, _⟩ => ⟨S1024x16384x1, .f32⟩
  | .local _ .vmem, ⟨0, _⟩ => ⟨S8x1x16384, .f32⟩
  | .local _ .vmem, ⟨1, _⟩ => ⟨S8x1x16384, .f32⟩
  | .local _ .vmem, ⟨2, _⟩ => ⟨S8x1x16384, .i32⟩
  | .local _ .vmem, ⟨3, _⟩ => ⟨S8x1x16384, .i32⟩
  | .local _ .vmem, ⟨4, _⟩ => ⟨S8x1x16384, .f32⟩
  | .local _ .vmem, ⟨5, _⟩ => ⟨S8x1x16384, .f32⟩
  | _, _ => ⟨S1024x16384x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x16384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1024x16384x1_S1024x1x16384 : S1024x16384x1.ShapeCasts S1024x1x16384
  shapeCasts_S1024x16384_S1024x1x16384 : S1024x16384.ShapeCasts S1024x1x16384
  inb_S8x1x16384_S8x1x16384_0_0_0 : ∀ a, (![0, 0, 0] : Fin 3 → Nat) a + S8x1x16384.size a ≤ S8x1x16384.size a
  h_S8x1x16384 : 0 < S8x1x16384.numel
  shapeCasts_S8x1x16384_S8x16384 : S8x1x16384.ShapeCasts S8x16384
  shapeCasts_S8x16384_S8x128x128 : S8x16384.ShapeCasts S8x128x128
  slices_S8x128x128_o0_0_0_S8x1x128 : S8x128x128.Slices ![0, 0, 0] S8x1x128
  shapeCasts_S8x1x128_S8x128 : S8x1x128.ShapeCasts S8x128
  shapeCasts_S8x128_S8x1x128 : S8x128.ShapeCasts S8x1x128
  shapeCasts_S8x1x128_S8x1x128 : S8x1x128.ShapeCasts S8x1x128
  broadcasts_S8x1x128_S8x128x128 : S8x1x128.Broadcasts S8x128x128
  shapeCasts_S8x128x128_S8x128x128x1 : S8x128x128.ShapeCasts S8x128x128x1
  shapeCasts_S8x128x128x1_S8x128x128 : S8x128x128x1.ShapeCasts S8x128x128
  slices_S8x128x128_o0_1_0_S8x1x128 : S8x128x128.Slices ![0, 1, 0] S8x1x128
  slices_S8x128x128_o0_2_0_S8x1x128 : S8x128x128.Slices ![0, 2, 0] S8x1x128
  slices_S8x128x128_o0_3_0_S8x1x128 : S8x128x128.Slices ![0, 3, 0] S8x1x128
  slices_S8x128x128_o0_4_0_S8x1x128 : S8x128x128.Slices ![0, 4, 0] S8x1x128
  slices_S8x128x128_o0_5_0_S8x1x128 : S8x128x128.Slices ![0, 5, 0] S8x1x128
  slices_S8x128x128_o0_6_0_S8x1x128 : S8x128x128.Slices ![0, 6, 0] S8x1x128
  slices_S8x128x128_o0_7_0_S8x1x128 : S8x128x128.Slices ![0, 7, 0] S8x1x128
  slices_S8x128x128_o0_8_0_S8x1x128 : S8x128x128.Slices ![0, 8, 0] S8x1x128
  slices_S8x128x128_o0_9_0_S8x1x128 : S8x128x128.Slices ![0, 9, 0] S8x1x128
  slices_S8x128x128_o0_10_0_S8x1x128 : S8x128x128.Slices ![0, 10, 0] S8x1x128
  slices_S8x128x128_o0_11_0_S8x1x128 : S8x128x128.Slices ![0, 11, 0] S8x1x128
  slices_S8x128x128_o0_12_0_S8x1x128 : S8x128x128.Slices ![0, 12, 0] S8x1x128
  slices_S8x128x128_o0_13_0_S8x1x128 : S8x128x128.Slices ![0, 13, 0] S8x1x128
  slices_S8x128x128_o0_14_0_S8x1x128 : S8x128x128.Slices ![0, 14, 0] S8x1x128
  slices_S8x128x128_o0_15_0_S8x1x128 : S8x128x128.Slices ![0, 15, 0] S8x1x128
  slices_S8x128x128_o0_16_0_S8x1x128 : S8x128x128.Slices ![0, 16, 0] S8x1x128
  slices_S8x128x128_o0_17_0_S8x1x128 : S8x128x128.Slices ![0, 17, 0] S8x1x128
  slices_S8x128x128_o0_18_0_S8x1x128 : S8x128x128.Slices ![0, 18, 0] S8x1x128
  slices_S8x128x128_o0_19_0_S8x1x128 : S8x128x128.Slices ![0, 19, 0] S8x1x128
  slices_S8x128x128_o0_20_0_S8x1x128 : S8x128x128.Slices ![0, 20, 0] S8x1x128
  slices_S8x128x128_o0_21_0_S8x1x128 : S8x128x128.Slices ![0, 21, 0] S8x1x128
  slices_S8x128x128_o0_22_0_S8x1x128 : S8x128x128.Slices ![0, 22, 0] S8x1x128
  slices_S8x128x128_o0_23_0_S8x1x128 : S8x128x128.Slices ![0, 23, 0] S8x1x128
  slices_S8x128x128_o0_24_0_S8x1x128 : S8x128x128.Slices ![0, 24, 0] S8x1x128
  slices_S8x128x128_o0_25_0_S8x1x128 : S8x128x128.Slices ![0, 25, 0] S8x1x128
  slices_S8x128x128_o0_26_0_S8x1x128 : S8x128x128.Slices ![0, 26, 0] S8x1x128
  slices_S8x128x128_o0_27_0_S8x1x128 : S8x128x128.Slices ![0, 27, 0] S8x1x128
  slices_S8x128x128_o0_28_0_S8x1x128 : S8x128x128.Slices ![0, 28, 0] S8x1x128
  slices_S8x128x128_o0_29_0_S8x1x128 : S8x128x128.Slices ![0, 29, 0] S8x1x128
  slices_S8x128x128_o0_30_0_S8x1x128 : S8x128x128.Slices ![0, 30, 0] S8x1x128
  slices_S8x128x128_o0_31_0_S8x1x128 : S8x128x128.Slices ![0, 31, 0] S8x1x128
  slices_S8x128x128_o0_32_0_S8x1x128 : S8x128x128.Slices ![0, 32, 0] S8x1x128
  slices_S8x128x128_o0_33_0_S8x1x128 : S8x128x128.Slices ![0, 33, 0] S8x1x128
  slices_S8x128x128_o0_34_0_S8x1x128 : S8x128x128.Slices ![0, 34, 0] S8x1x128
  slices_S8x128x128_o0_35_0_S8x1x128 : S8x128x128.Slices ![0, 35, 0] S8x1x128
  slices_S8x128x128_o0_36_0_S8x1x128 : S8x128x128.Slices ![0, 36, 0] S8x1x128
  slices_S8x128x128_o0_37_0_S8x1x128 : S8x128x128.Slices ![0, 37, 0] S8x1x128
  slices_S8x128x128_o0_38_0_S8x1x128 : S8x128x128.Slices ![0, 38, 0] S8x1x128
  slices_S8x128x128_o0_39_0_S8x1x128 : S8x128x128.Slices ![0, 39, 0] S8x1x128
  slices_S8x128x128_o0_40_0_S8x1x128 : S8x128x128.Slices ![0, 40, 0] S8x1x128
  slices_S8x128x128_o0_41_0_S8x1x128 : S8x128x128.Slices ![0, 41, 0] S8x1x128
  slices_S8x128x128_o0_42_0_S8x1x128 : S8x128x128.Slices ![0, 42, 0] S8x1x128
  slices_S8x128x128_o0_43_0_S8x1x128 : S8x128x128.Slices ![0, 43, 0] S8x1x128
  slices_S8x128x128_o0_44_0_S8x1x128 : S8x128x128.Slices ![0, 44, 0] S8x1x128
  slices_S8x128x128_o0_45_0_S8x1x128 : S8x128x128.Slices ![0, 45, 0] S8x1x128
  slices_S8x128x128_o0_46_0_S8x1x128 : S8x128x128.Slices ![0, 46, 0] S8x1x128
  slices_S8x128x128_o0_47_0_S8x1x128 : S8x128x128.Slices ![0, 47, 0] S8x1x128
  slices_S8x128x128_o0_48_0_S8x1x128 : S8x128x128.Slices ![0, 48, 0] S8x1x128
  slices_S8x128x128_o0_49_0_S8x1x128 : S8x128x128.Slices ![0, 49, 0] S8x1x128
  slices_S8x128x128_o0_50_0_S8x1x128 : S8x128x128.Slices ![0, 50, 0] S8x1x128
  slices_S8x128x128_o0_51_0_S8x1x128 : S8x128x128.Slices ![0, 51, 0] S8x1x128
  slices_S8x128x128_o0_52_0_S8x1x128 : S8x128x128.Slices ![0, 52, 0] S8x1x128
  slices_S8x128x128_o0_53_0_S8x1x128 : S8x128x128.Slices ![0, 53, 0] S8x1x128
  slices_S8x128x128_o0_54_0_S8x1x128 : S8x128x128.Slices ![0, 54, 0] S8x1x128
  slices_S8x128x128_o0_55_0_S8x1x128 : S8x128x128.Slices ![0, 55, 0] S8x1x128
  slices_S8x128x128_o0_56_0_S8x1x128 : S8x128x128.Slices ![0, 56, 0] S8x1x128
  slices_S8x128x128_o0_57_0_S8x1x128 : S8x128x128.Slices ![0, 57, 0] S8x1x128
  slices_S8x128x128_o0_58_0_S8x1x128 : S8x128x128.Slices ![0, 58, 0] S8x1x128
  slices_S8x128x128_o0_59_0_S8x1x128 : S8x128x128.Slices ![0, 59, 0] S8x1x128
  slices_S8x128x128_o0_60_0_S8x1x128 : S8x128x128.Slices ![0, 60, 0] S8x1x128
  slices_S8x128x128_o0_61_0_S8x1x128 : S8x128x128.Slices ![0, 61, 0] S8x1x128
  slices_S8x128x128_o0_62_0_S8x1x128 : S8x128x128.Slices ![0, 62, 0] S8x1x128
  slices_S8x128x128_o0_63_0_S8x1x128 : S8x128x128.Slices ![0, 63, 0] S8x1x128
  slices_S8x128x128_o0_64_0_S8x1x128 : S8x128x128.Slices ![0, 64, 0] S8x1x128
  slices_S8x128x128_o0_65_0_S8x1x128 : S8x128x128.Slices ![0, 65, 0] S8x1x128
  slices_S8x128x128_o0_66_0_S8x1x128 : S8x128x128.Slices ![0, 66, 0] S8x1x128
  slices_S8x128x128_o0_67_0_S8x1x128 : S8x128x128.Slices ![0, 67, 0] S8x1x128
  slices_S8x128x128_o0_68_0_S8x1x128 : S8x128x128.Slices ![0, 68, 0] S8x1x128
  slices_S8x128x128_o0_69_0_S8x1x128 : S8x128x128.Slices ![0, 69, 0] S8x1x128
  slices_S8x128x128_o0_70_0_S8x1x128 : S8x128x128.Slices ![0, 70, 0] S8x1x128
  slices_S8x128x128_o0_71_0_S8x1x128 : S8x128x128.Slices ![0, 71, 0] S8x1x128
  slices_S8x128x128_o0_72_0_S8x1x128 : S8x128x128.Slices ![0, 72, 0] S8x1x128
  slices_S8x128x128_o0_73_0_S8x1x128 : S8x128x128.Slices ![0, 73, 0] S8x1x128
  slices_S8x128x128_o0_74_0_S8x1x128 : S8x128x128.Slices ![0, 74, 0] S8x1x128
  slices_S8x128x128_o0_75_0_S8x1x128 : S8x128x128.Slices ![0, 75, 0] S8x1x128
  slices_S8x128x128_o0_76_0_S8x1x128 : S8x128x128.Slices ![0, 76, 0] S8x1x128
  slices_S8x128x128_o0_77_0_S8x1x128 : S8x128x128.Slices ![0, 77, 0] S8x1x128
  slices_S8x128x128_o0_78_0_S8x1x128 : S8x128x128.Slices ![0, 78, 0] S8x1x128
  slices_S8x128x128_o0_79_0_S8x1x128 : S8x128x128.Slices ![0, 79, 0] S8x1x128
  slices_S8x128x128_o0_80_0_S8x1x128 : S8x128x128.Slices ![0, 80, 0] S8x1x128
  slices_S8x128x128_o0_81_0_S8x1x128 : S8x128x128.Slices ![0, 81, 0] S8x1x128
  slices_S8x128x128_o0_82_0_S8x1x128 : S8x128x128.Slices ![0, 82, 0] S8x1x128
  slices_S8x128x128_o0_83_0_S8x1x128 : S8x128x128.Slices ![0, 83, 0] S8x1x128
  slices_S8x128x128_o0_84_0_S8x1x128 : S8x128x128.Slices ![0, 84, 0] S8x1x128
  slices_S8x128x128_o0_85_0_S8x1x128 : S8x128x128.Slices ![0, 85, 0] S8x1x128
  slices_S8x128x128_o0_86_0_S8x1x128 : S8x128x128.Slices ![0, 86, 0] S8x1x128
  slices_S8x128x128_o0_87_0_S8x1x128 : S8x128x128.Slices ![0, 87, 0] S8x1x128
  slices_S8x128x128_o0_88_0_S8x1x128 : S8x128x128.Slices ![0, 88, 0] S8x1x128
  slices_S8x128x128_o0_89_0_S8x1x128 : S8x128x128.Slices ![0, 89, 0] S8x1x128
  slices_S8x128x128_o0_90_0_S8x1x128 : S8x128x128.Slices ![0, 90, 0] S8x1x128
  slices_S8x128x128_o0_91_0_S8x1x128 : S8x128x128.Slices ![0, 91, 0] S8x1x128
  slices_S8x128x128_o0_92_0_S8x1x128 : S8x128x128.Slices ![0, 92, 0] S8x1x128
  slices_S8x128x128_o0_93_0_S8x1x128 : S8x128x128.Slices ![0, 93, 0] S8x1x128
  slices_S8x128x128_o0_94_0_S8x1x128 : S8x128x128.Slices ![0, 94, 0] S8x1x128
  slices_S8x128x128_o0_95_0_S8x1x128 : S8x128x128.Slices ![0, 95, 0] S8x1x128
  slices_S8x128x128_o0_96_0_S8x1x128 : S8x128x128.Slices ![0, 96, 0] S8x1x128
  slices_S8x128x128_o0_97_0_S8x1x128 : S8x128x128.Slices ![0, 97, 0] S8x1x128
  slices_S8x128x128_o0_98_0_S8x1x128 : S8x128x128.Slices ![0, 98, 0] S8x1x128
  slices_S8x128x128_o0_99_0_S8x1x128 : S8x128x128.Slices ![0, 99, 0] S8x1x128
  slices_S8x128x128_o0_100_0_S8x1x128 : S8x128x128.Slices ![0, 100, 0] S8x1x128
  slices_S8x128x128_o0_101_0_S8x1x128 : S8x128x128.Slices ![0, 101, 0] S8x1x128
  slices_S8x128x128_o0_102_0_S8x1x128 : S8x128x128.Slices ![0, 102, 0] S8x1x128
  slices_S8x128x128_o0_103_0_S8x1x128 : S8x128x128.Slices ![0, 103, 0] S8x1x128
  slices_S8x128x128_o0_104_0_S8x1x128 : S8x128x128.Slices ![0, 104, 0] S8x1x128
  slices_S8x128x128_o0_105_0_S8x1x128 : S8x128x128.Slices ![0, 105, 0] S8x1x128
  slices_S8x128x128_o0_106_0_S8x1x128 : S8x128x128.Slices ![0, 106, 0] S8x1x128
  slices_S8x128x128_o0_107_0_S8x1x128 : S8x128x128.Slices ![0, 107, 0] S8x1x128
  slices_S8x128x128_o0_108_0_S8x1x128 : S8x128x128.Slices ![0, 108, 0] S8x1x128
  slices_S8x128x128_o0_109_0_S8x1x128 : S8x128x128.Slices ![0, 109, 0] S8x1x128
  slices_S8x128x128_o0_110_0_S8x1x128 : S8x128x128.Slices ![0, 110, 0] S8x1x128
  slices_S8x128x128_o0_111_0_S8x1x128 : S8x128x128.Slices ![0, 111, 0] S8x1x128
  slices_S8x128x128_o0_112_0_S8x1x128 : S8x128x128.Slices ![0, 112, 0] S8x1x128
  slices_S8x128x128_o0_113_0_S8x1x128 : S8x128x128.Slices ![0, 113, 0] S8x1x128
  slices_S8x128x128_o0_114_0_S8x1x128 : S8x128x128.Slices ![0, 114, 0] S8x1x128
  slices_S8x128x128_o0_115_0_S8x1x128 : S8x128x128.Slices ![0, 115, 0] S8x1x128
  slices_S8x128x128_o0_116_0_S8x1x128 : S8x128x128.Slices ![0, 116, 0] S8x1x128
  slices_S8x128x128_o0_117_0_S8x1x128 : S8x128x128.Slices ![0, 117, 0] S8x1x128
  slices_S8x128x128_o0_118_0_S8x1x128 : S8x128x128.Slices ![0, 118, 0] S8x1x128
  slices_S8x128x128_o0_119_0_S8x1x128 : S8x128x128.Slices ![0, 119, 0] S8x1x128
  slices_S8x128x128_o0_120_0_S8x1x128 : S8x128x128.Slices ![0, 120, 0] S8x1x128
  slices_S8x128x128_o0_121_0_S8x1x128 : S8x128x128.Slices ![0, 121, 0] S8x1x128
  slices_S8x128x128_o0_122_0_S8x1x128 : S8x128x128.Slices ![0, 122, 0] S8x1x128
  slices_S8x128x128_o0_123_0_S8x1x128 : S8x128x128.Slices ![0, 123, 0] S8x1x128
  slices_S8x128x128_o0_124_0_S8x1x128 : S8x128x128.Slices ![0, 124, 0] S8x1x128
  slices_S8x128x128_o0_125_0_S8x1x128 : S8x128x128.Slices ![0, 125, 0] S8x1x128
  slices_S8x128x128_o0_126_0_S8x1x128 : S8x128x128.Slices ![0, 126, 0] S8x1x128
  slices_S8x128x128_o0_127_0_S8x1x128 : S8x128x128.Slices ![0, 127, 0] S8x1x128
  shapeCasts_S8x128x128_S8x16384 : S8x128x128.ShapeCasts S8x16384
  shapeCasts_S8x16384_S8x1x16384 : S8x16384.ShapeCasts S8x1x16384
  shapeCasts_S1024x1x16384_S1024x16384x1 : S1024x1x16384.ShapeCasts S1024x16384x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1x16384.size a ≤ S1024x1x16384.size a
  hwx0_0 : ∀ i : grid0.Coords, EltTy.bits .f32 = 32 ∨ (Rect.block (s := S1024x1x16384) S8x1x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1x16384.size a ≤ S1024x1x16384.size a
  hwx0_1 : ∀ i : grid0.Coords, EltTy.bits .i32 = 32 ∨ (Rect.block (s := S1024x1x16384) S8x1x16384.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1x16384.size a ≤ S1024x1x16384.size a
  hwx0_2 : ∀ i : grid0.Coords, EltTy.bits .f32 = 32 ∨ (Rect.block (s := S1024x1x16384) S8x1x16384.size (cc0_transform_2 i) (hinb0_2 i)).WholeWords (EltTy.packing .f32)

variable [Facts₀]

abbrev win0_0 : Pipeline.Window sig grid0 :=
  Pipeline.Window.ofSpec (Memref.whole main_v0) S8x1x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x1x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x1x16384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x16384x1 : Shape := ⟨3, ![1024, 16384, 1]⟩
abbrev S1024x16384 : Shape := ⟨2, ![1024, 16384]⟩
abbrev S_ : Shape := ⟨0, ![]⟩
abbrev S1 : Shape := ⟨1, ![1]⟩
abbrev S1x1x1 : Shape := ⟨3, ![1, 1, 1]⟩

abbrev nBuf : Space → Nat
  | .hbm => 25
  | .vmem => 0
  | .smem => 0
  | _ => 0

abbrev bufTy : (tb : Table) → Fin (tcTables nBuf tb) → BufTy
  | .hbm, ⟨0, _⟩ => ⟨S1024x16384x1, .f32⟩
  | .hbm, ⟨1, _⟩ => ⟨S1024x16384, .i32⟩
  | .hbm, ⟨2, _⟩ => ⟨S1024x16384x1, .i32⟩
  | .hbm, ⟨3, _⟩ => ⟨S_, .i32⟩
  | .hbm, ⟨4, _⟩ => ⟨S1024x16384x1, .i32⟩
  | .hbm, ⟨5, _⟩ => ⟨S1024x16384x1, .i1⟩
  | .hbm, ⟨6, _⟩ => ⟨S_, .i32⟩
  | .hbm, ⟨7, _⟩ => ⟨S1024x16384x1, .i32⟩
  | .hbm, ⟨8, _⟩ => ⟨S1024x16384x1, .i32⟩
  | .hbm, ⟨9, _⟩ => ⟨S1024x16384x1, .i32⟩
  | .hbm, ⟨10, _⟩ => ⟨S1, .i32⟩
  | .hbm, ⟨11, _⟩ => ⟨S_, .i32⟩
  | .hbm, ⟨12, _⟩ => ⟨S1024x16384x1, .i32⟩
  | .hbm, ⟨13, _⟩ => ⟨S1024x16384x1, .i1⟩
  | .hbm, ⟨14, _⟩ => ⟨S1x1x1, .i32⟩
  | .hbm, ⟨15, _⟩ => ⟨S1024x16384x1, .i32⟩
  | .hbm, ⟨16, _⟩ => ⟨S1024x16384x1, .i1⟩
  | .hbm, ⟨17, _⟩ => ⟨S1024x16384x1, .i1⟩
  | .hbm, ⟨18, _⟩ => ⟨S_, .i1⟩
  | .hbm, ⟨19, _⟩ => ⟨S1024x16384, .i1⟩
  | .hbm, ⟨20, _⟩ => ⟨S1024x16384x1, .f32⟩
  | .hbm, ⟨21, _⟩ => ⟨S1024x16384x1, .i1⟩
  | .hbm, ⟨22, _⟩ => ⟨S_, .f32⟩
  | .hbm, ⟨23, _⟩ => ⟨S1024x16384x1, .f32⟩
  | .hbm, ⟨24, _⟩ => ⟨S1024x16384x1, .f32⟩
  | _, _ => ⟨S1024x16384x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_c_2 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_c_3 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩

abbrev nD : Nat := 1
abbrev τ : Topo := Topo.v7x

variable {F : FTy → Type} [FloatOps F]

class Facts₀ : Prop where
  bcast_S1024x16384_S1024x16384x1_0_1 : S1024x16384.BroadcastsInDim S1024x16384x1 (![0, 1] : Fin 2 → Fin S1024x16384x1.rank)
  bcast_S_S1024x16384x1 : S_.BroadcastsInDim S1024x16384x1 (![] : Fin 0 → Fin S1024x16384x1.rank)
  bcast_S1_S1x1x1_2 : S1.BroadcastsInDim S1x1x1 (![2] : Fin 1 → Fin S1x1x1.rank)
  bcast_S1x1x1_S1024x16384x1_0_1_2 : S1x1x1.BroadcastsInDim S1024x16384x1 (![0, 1, 2] : Fin 3 → Fin S1024x16384x1.rank)
  reducesTo_S1024x16384x1_S1024x16384_d2 : S1024x16384x1.ReducesTo [2] S1024x16384
  h_S_ : 0 < S_.numel
  gather_S1024x16384x1_S1024x16384x1_S1024x16384x1_2_1_0_0_1_2_111_wf : GatherDims.WF S1024x16384x1 S1024x16384x1 S1024x16384x1 [2] [1] [0] [1] [0] 2 ![1, 1, 1]

variable [Facts₀]

def gather_S1024x16384x1_S1024x16384x1_S1024x16384x1_2_1_0_0_1_2_111 : GatherDims S1024x16384x1 S1024x16384x1 S1024x16384x1 where
  offsetDims := [2]
  collapsedSliceDims := [1]
  operandBatchingDims := [0]
  startIndicesBatchingDims := [0]
  startIndexMap := [1]
  indexVectorDim := 2
  sliceSizes := ![1, 1, 1]
  wf := gather_S1024x16384x1_S1024x16384x1_S1024x16384x1_2_1_0_0_1_2_111_wf

class Facts : Prop extends Facts₀ where

variable [Facts]
-- ==== Proof.Spec.lean ====
/-
  The interleaver as one function of the two argument arrays.

  `x` is a batch of 1024 rows of 16384 numbers (kept with a trailing unit axis), `perm` a batch of 1024 rows of 16384
  index words. The interleaved array holds, at row `b` and position `l`, the number of row `b` at position `perm[b, l]`.
  Both programs compute exactly this on index words that name a position of the row, `0 ≤ perm[b, l] < 16384`; outside
  that range they treat the word differently (one clamps it, the other wraps a negative word round and fills with a
  not-a-number past the end), so the range is a hypothesis of every statement about values.

  The position is written modulo the row length so that the function is total; on words in range the residue is the
  word itself.
-/
import Idealize.ShloMosaic.PureOps
import Idealize.ShloMosaic.Lib.ValueIdx

noncomputable section

namespace Cert.Interleave

open Idealize.ShloMosaic Idealize.ShloMosaic.ValueIdx

/-- The shape of `x` and of the result: 1024 rows, 16384 positions, a unit axis. -/
abbrev SX : Shape := ⟨3, ![1024, 16384, 1]⟩
/-- The shape of the index words: 1024 rows, 16384 positions. -/
abbrev SP : Shape := ⟨2, ![1024, 16384]⟩

/-- Every index word names a position of its row. -/
def InRange (perm : IVec SP 32) : Prop := ∀ i : SP.Idx, (perm i).toNat < 16384

/-- The interleaved array: at `(b, l, 0)` the entry of row `b` of `x` at position `perm[b, l]`. -/
def G {α : Type} (x : SX.Idx → α) (perm : IVec SP 32) : SX.Idx → α :=
  fun i => x (ix3 (i 0) ⟨(perm (ix2 (i 0) (i 1))).toNat % 16384, Nat.mod_lt _ (by decide)⟩ (i 2))

theorem G_apply {α : Type} (x : SX.Idx → α) (perm : IVec SP 32) (b : Fin 1024) (l : Fin 16384) (o : Fin 1) :
    G x perm (ix3 b l o) = x (ix3 b ⟨(perm (ix2 b l)).toNat % 16384, Nat.mod_lt _ (by decide)⟩ o) := rfl

end Cert.Interleave

end
-- ==== Proof.PreRange.lean ====
/-
  The precondition says that every index word names a position of its row.

  The stated precondition is the conjunction of two "for all entries" tests: every number of `x` is finite, and every
  index word `w` satisfies `0 ≤ w` and `w < 16384` as a signed integer. Each test is a reduction by "and" to one bit, and
  the conjunction of the two bits is 1; so the second bit is 1, so the tested bit is 1 at every entry, so both signed
  comparisons hold there. A word that is not negative reads the same signed and unsigned, so its unsigned reading is
  below 16384 too. The finiteness half is not needed: both programs only move numbers around.
-/
import proofs.«407096_j67465346286283_2_alg».proof.Pre_finite_inputs
import proofs.«407096_j67465346286283_2_alg».proof.Proof.Spec
import Idealize.ShloMosaic.Lib.ReduceAll
import Idealize.ShloMosaic.Lib.ValueIdx

noncomputable section

namespace Cert.Interleave.PreRange

open Idealize.ShloMosaic Idealize.ShloMosaic.ValueIdx

variable [Cert.Pre_finite_inputs.Facts]

/-- A scalar has one index. -/
instance : Subsingleton Cert.Pre_finite_inputs.S_.Idx := ⟨fun _ _ => funext fun d => d.elim0⟩

/-- A word that is not negative and below 16384 as a signed integer is below 16384 read unsigned. -/
theorem toNat_lt_of_signed {w : BitVec 32} (h0 : (0 : Int) ≤ w.toInt) (h1 : w.toInt < 16384) : w.toNat < 16384 := by
  have hc := BitVec.toInt_eq_toNat_cond w
  have hlt := w.isLt
  split at hc <;> omega

/-- Under the precondition every index word names a position of its row. -/
theorem inRange_of_pre {F : FTy → Type} [FloatOps F] (x : FVec F Cert.Pre_finite_inputs.S1024x16384x1 .f32)
    (perm : IVec Cert.Pre_finite_inputs.S1024x16384 32)
    (h : Cert.Pre_finite_inputs.fn (F := F) x perm = fun _ => 1#1) : InRange perm := by
  intro i
  have h0 := congrFun h ix0
  dsimp only [Cert.Pre_finite_inputs.fn] at h0
  have h1 : IntOp.andi _ _ = 1#1 := h0
  have h2 := Host.reduce_andi_all _ _ _ _ ix0 (IntOp.andi_eq_one.1 h1).2 i
  have h3 : IntOp.andi (IntOp.cmpi .sge (perm i) 0#32) (IntOp.cmpi .slt (perm i) 16384#32) = 1#1 := h2
  obtain ⟨ha, hb⟩ := IntOp.andi_eq_one.1 h3
  have ha' := IntOp.cmpi_sge.1 ha
  have hb' := IntOp.cmpi_slt.1 hb
  have e0 : (0#32 : BitVec 32).toInt = 0 := by decide
  have e1 : (16384#32 : BitVec 32).toInt = 16384 := by decide
  rw [e0] at ha'
  rw [e1] at hb'
  exact toNat_lt_of_signed ha' hb'

end Cert.Interleave.PreRange

end
-- ==== Proof.Step.lean ====
/-
  One step of a selection over the 128 sub-rows of a block, and the invariant it keeps.

  A block of 8 rows of 16384 numbers is viewed as 8 × 128 × 128: row, sub-row of 128, lane. Each output position of
  the block carries a sub-row word `HI` and a lane word `LO`. The selection visits the sub-rows `j = 0, 1, …` in order;
  step `j` lays sub-row `j` of every row over all 128 sub-rows, picks from it, lane by lane, the entry at lane
  `LO mod 128`, and keeps that entry exactly where `HI = j`, the previous value elsewhere. After the steps `0 … j-1`
  every position whose sub-row word is below `j` already holds the entry at (its row, sub-row `HI`, lane `LO mod 128`);
  that is the invariant, empty at `j = 0` and, once `j` passes every sub-row word, a statement about every position.
-/
import Idealize.ShloMosaic.PureOps
import Idealize.ShloMosaic.Lib.ValueIdx
import Idealize.ShloMosaic.Lib.Pipeline.Value
import Idealize.ShloMosaic.Lib.StableHlo.Predicate

noncomputable section

namespace Cert.Interleave.Step

open Idealize.ShloMosaic Idealize.ShloMosaic.ValueIdx Idealize.ShloMosaic.StableHlo.Predicate

/-- A block: 8 rows, 128 sub-rows, 128 lanes. -/
abbrev T : Shape := ⟨3, ![8, 128, 128]⟩
/-- One sub-row of every row, the sub-row axis kept as a unit axis. -/
abbrev R1 : Shape := ⟨3, ![8, 1, 128]⟩
/-- One sub-row of every row. -/
abbrev R0 : Shape := ⟨2, ![8, 128]⟩
/-- A block with a trailing unit axis. -/
abbrev T1 : Shape := ⟨4, ![8, 128, 128, 1]⟩

variable {α : Type}

/-- Sub-row `j` of every row, laid over all 128 sub-rows, reads at (row, sub-row, lane) the block at (row, `j`, lane). -/
theorem subrow_apply (X : T.Idx → α) (j : Nat) (hj : j < 128)
    (hs : T.Slices ![0, j, 0] R1) (h1 : R1.ShapeCasts R0) (h2 : R0.ShapeCasts R1) (h3 : R1.ShapeCasts R1) (h4 : R1.Broadcasts T)
    (y : T.Idx) :
    broadcastTo T (shapeCast R1 (shapeCast R1 (shapeCast R0 (extractStridedSlice R1 ![0, j, 0] X hs) h1) h2) h3) h4 y
      = X (ix3 (y 0) ⟨j, hj⟩ (y 2)) := by
  rw [shapeCast_self, shapeCast_shapeCast]
  refine (broadcastTo_apply _ h4 y (ix3 (y 0) 0 (y 2)) ?_).trans ?_
  · intro a
    match a with
    | ⟨0, _⟩ => rfl
    | ⟨1, _⟩ => rfl
    | ⟨2, _⟩ => rfl
  · refine extractStridedSlice_apply _ X hs _ (ix3 (y 0) ⟨j, hj⟩ (y 2)) ?_
    intro a
    match a with
    | ⟨0, _⟩ => exact (Nat.zero_add _).symm
    | ⟨1, _⟩ => rfl
    | ⟨2, _⟩ => exact (Nat.zero_add _).symm

/-- A lane gather along the last axis reads, at (row, sub-row, lane), its source at (row, sub-row, index word mod 128). -/
theorem gather_apply (B : T.Idx → α) (idx : IVec T 32) (y : T.Idx) :
    dynamicGather 2 B idx y = B (ix3 (y 0) (y 1) ⟨(idx y).toNat % 128, Nat.mod_lt _ (by decide)⟩) := by
  unfold dynamicGather
  congr 1
  funext b
  match b with
  | ⟨0, _⟩ => rfl
  | ⟨1, _⟩ => rfl
  | ⟨2, _⟩ => rfl

/-- A lane word that is never negative is left alone by the wrap-round of negative indices (add 128 where negative),
    also through a trailing unit axis added and dropped again. -/
theorem wrap_eq (LO : IVec T 32) (hlo : ∀ y, IntOp.cmpi .slt (LO y) 0#32 = 0#1) (hA : T.ShapeCasts T1) (hB : T1.ShapeCasts T) :
    shapeCast T (shapeCast T1 (select (cmpi .slt LO (broadcast T 0#32)) (addi LO (broadcast T 128#32)) LO) hA) hB = LO := by
  rw [shapeCast_shapeCast]
  funext y
  show Scalar.select (IntOp.cmpi .slt (LO y) 0#32) _ (LO y) = LO y
  rw [hlo y]
  exact select_zero _ _

/-- After the sub-rows below `j`: a position whose sub-row word is below `j` holds the block's entry at
    (its row, that sub-row, its lane word mod 128). -/
def Inv (X : T.Idx → α) (HI LO : IVec T 32) (j : Nat) (acc : T.Idx → α) : Prop :=
  ∀ y : T.Idx, (HI y).toNat < j →
    acc y = X (ix3 (y 0) ⟨(HI y).toNat % 128, Nat.mod_lt _ (by decide)⟩ ⟨(LO y).toNat % 128, Nat.mod_lt _ (by decide)⟩)

theorem inv_zero (X : T.Idx → α) (HI LO : IVec T 32) (acc : T.Idx → α) : Inv X HI LO 0 acc :=
  fun _ h => absurd h (Nat.not_lt_zero _)

/-- Step `j` of the selection keeps the invariant: where the sub-row word is `j` the new value is the entry at
    (row, `j`, lane word mod 128); elsewhere the old value stays, and a sub-row word below `j + 1` other than `j` is below `j`. -/
theorem inv_step (X : T.Idx → α) (HI LO : IVec T 32) (hlo : ∀ y, IntOp.cmpi .slt (LO y) 0#32 = 0#1)
    (j : Nat) (hj : j < 128)
    (hs : T.Slices ![0, j, 0] R1) (h1 : R1.ShapeCasts R0) (h2 : R0.ShapeCasts R1) (h3 : R1.ShapeCasts R1) (h4 : R1.Broadcasts T)
    (hA : T.ShapeCasts T1) (hB : T1.ShapeCasts T) (acc : T.Idx → α) (h : Inv X HI LO j acc) :
    Inv X HI LO (j + 1)
      (select (cmpi .eq HI (broadcast T (BitVec.ofNat 32 j)))
        (dynamicGather 2
          (broadcastTo T (shapeCast R1 (shapeCast R1 (shapeCast R0 (extractStridedSlice R1 ![0, j, 0] X hs) h1) h2) h3) h4)
          (shapeCast T (shapeCast T1 (select (cmpi .slt LO (broadcast T 0#32)) (addi LO (broadcast T 128#32)) LO) hA) hB))
        acc) := by
  intro y hy
  rw [wrap_eq LO hlo hA hB]
  show Scalar.select (IntOp.cmpi .eq (HI y) (BitVec.ofNat 32 j)) (dynamicGather 2 _ LO y) (acc y) = _
  have hj32 : j < 2 ^ 32 := by omega
  by_cases he : HI y = BitVec.ofNat 32 j
  · have hn : (HI y).toNat = j := by rw [he, BitVec.toNat_ofNat]; exact Nat.mod_eq_of_lt hj32
    rw [cmpi_eq_iff.mpr he, select_one, gather_apply, subrow_apply X j hj hs h1 h2 h3 h4]
    refine congrArg X (funext fun a => ?_)
    match a with
    | ⟨0, _⟩ => rfl
    | ⟨1, _⟩ => exact Fin.ext (by show j = (HI y).toNat % 128; rw [hn]; exact (Nat.mod_eq_of_lt hj).symm)
    | ⟨2, _⟩ => rfl
  · have hne : (HI y).toNat ≠ j := fun e => he (BitVec.eq_of_toNat_eq (by rw [e, BitVec.toNat_ofNat]; exact (Nat.mod_eq_of_lt hj32).symm))
    rw [eq_zero_of_ne_one (fun hc => he (cmpi_eq_iff.mp hc)), select_zero]
    exact h y (by omega)

/-- Once `j` has passed every sub-row word the invariant speaks of every position. -/
theorem inv_all (X : T.Idx → α) (HI LO : IVec T 32) (acc : T.Idx → α) (h : Inv X HI LO 128 acc)
    (hhi : ∀ y, (HI y).toNat < 128) (y : T.Idx) :
    acc y = X (ix3 (y 0) ⟨(HI y).toNat % 128, Nat.mod_lt _ (by decide)⟩ ⟨(LO y).toNat % 128, Nat.mod_lt _ (by decide)⟩) :=
  h y (hhi y)

end Cert.Interleave.Step

end
-- ==== Proof.Words.lean ====
/-
  Facts about one 32-bit index word `w` that names a position of a row of 16384, `w < 16384` read unsigned.

  Such a word is not negative, so its signed and unsigned readings agree; clamping it into `[0, 16383]` leaves it alone;
  its arithmetic shift right by 7 is its quotient by 128 and its low seven bits are its remainder modulo 128 (the
  sub-row of 128 and the lane inside it); the comparisons a signed range test makes on it come out as expected.
-/
import Idealize.ShloMosaic.PureOps
import Idealize.ShloMosaic.Lib.StableHlo.Predicate

namespace Cert.Interleave.Words

open Idealize.ShloMosaic Idealize.ShloMosaic.StableHlo.Predicate

variable {w : BitVec 32}

/-- A one-bit word that is not `1` is `0`. -/
theorem bit_eq_zero {b : BitVec 1} (h : ¬ b = 1#1) : b = 0#1 := by
  rcases BitVec.eq_zero_or_eq_one b with h0 | h1
  · exact h0
  · exact absurd h1 h

theorem toInt_eq (h : w.toNat < 16384) : w.toInt = w.toNat := toInt_eq_toNat_of_lt (by omega)

/-- Clamping into `[0, 16383]` (the larger of the word and 0, then the smaller of that and 16383) keeps the word. -/
theorem clamp (h : w.toNat < 16384) : IntOp.minsi 16383#32 (IntOp.maxsi 0#32 w) = w := by
  have hti := toInt_eq h
  have h0 : (0#32 : BitVec 32).toInt = 0 := by decide
  have hm : (16383#32 : BitVec 32).toInt = 16383 := by decide
  have hmax : IntOp.maxsi 0#32 w = w := by
    unfold IntOp.maxsi
    rw [if_neg]
    simp only [BitVec.slt, hti, h0, decide_eq_true_eq]; omega
  rw [hmax]
  unfold IntOp.minsi
  rw [if_neg]
  simp only [BitVec.slt, hti, hm, decide_eq_true_eq]; omega

/-- The arithmetic shift right by 7 is the quotient by 128: the sub-row of 128 the position lies in. -/
theorem shr7_toNat (u : ArithUnit) (h : w.toNat < 16384) : (IntOp.shrsi u w 7#32).toNat = w.toNat / 128 := by
  have hm : w.msb = false := BitVec.msb_eq_false_iff_two_mul_lt.mpr (by omega)
  unfold IntOp.shrsi
  rw [if_pos (by decide)]
  show (w.sshiftRight (7#32).toNat).toNat = _
  rw [BitVec.sshiftRight_eq_of_msb_false hm, BitVec.toNat_ushiftRight, Nat.shiftRight_eq_div_pow]
  rfl

/-- The low seven bits are the remainder modulo 128: the lane inside the sub-row. This holds of every word. -/
theorem and127_toNat (w : BitVec 32) : (IntOp.andi w 127#32).toNat = w.toNat % 128 := by
  unfold IntOp.andi
  rw [BitVec.toNat_and]
  exact Nat.and_two_pow_sub_one_eq_mod w.toNat 7

/-- The low seven bits, as a word, are not negative. -/
theorem and127_not_neg (w : BitVec 32) : IntOp.cmpi .slt (IntOp.andi w 127#32) 0#32 = 0#1 := by
  apply bit_eq_zero
  intro hc
  have hlt : (IntOp.andi w 127#32).toNat < 128 := by rw [and127_toNat]; exact Nat.mod_lt _ (by decide)
  have := (slt_iff_toNat (a := IntOp.andi w 127#32) (b := 0#32) (by omega) (by decide)).mp hc
  simp at this

/-- A word in range is not negative. -/
theorem not_neg (h : w.toNat < 16384) : IntOp.cmpi .slt w 0#32 = 0#1 := by
  apply bit_eq_zero
  intro hc
  have := (slt_iff_toNat (a := w) (b := 0#32) (by omega) (by decide)).mp hc
  simp at this

theorem sge_zero (h : w.toNat < 16384) : IntOp.cmpi .sge w 0#32 = 1#1 :=
  (sge_iff_toNat (a := w) (b := 0#32) (by omega) (by decide)).mpr (by simp)

theorem sle_last (h : w.toNat < 16384) : IntOp.cmpi .sle w 16383#32 = 1#1 :=
  (sle_iff_toNat (a := w) (b := 16383#32) (by omega) (by decide)).mpr (by
    show w.toNat ≤ (16383#32 : BitVec 32).toNat
    have : (16383#32 : BitVec 32).toNat = 16383 := by decide
    omega)

/-- Read as a signed integer and clamped into `[0, 16383]` as a natural number, the word is itself. -/
theorem clamp_nat (h : w.toNat < 16384) : min w.toInt.toNat (16384 - 1) = w.toNat := by
  rw [toInt_eq h]; simp; omega

/-- Quotient and remainder by 128 put the position back together. -/
theorem div_mod_128 (n : Nat) : n / 128 * 128 + n % 128 = n := Nat.div_add_mod' n 128

end Cert.Interleave.Words
-- ==== Proof.Body.lean ====
/-
  What one grid point of the kernel leaves in its output block.

  The point's two input blocks are 8 rows of the batch: `x0`, their 16384 numbers, and `x1`, their 16384 index words
  (both with the unit middle axis of the staged arrays). The body views a row of 16384 as 128 sub-rows of 128 lanes,
  clamps every index word into `[0, 16383]`, splits it into a sub-row word (shift right by 7) and a lane word (low
  seven bits), and then visits the 128 sub-rows one after the other, each time picking lanes out of that sub-row and
  keeping them where the sub-row word matches (the selection of Step.lean). For index words that name a position of the
  row, the clamp does nothing, the sub-row word is the position's quotient by 128 and the lane word its remainder, so
  some step matches every output position, and what is left at position `c` of row `r` is the number of row `r` at
  position `x1[r, c]`: quotient times 128 plus remainder is the position again.
-/
import proofs.«407096_j67465346286283_2_alg».proof.Proof.FrameKernelIdeal
import proofs.«407096_j67465346286283_2_alg».proof.Proof.Step
import proofs.«407096_j67465346286283_2_alg».proof.Proof.Words
import Idealize.ShloMosaic.Lib.Pipeline.Value
import Idealize.ShloMosaic.Lib.ValueIdx

set_option maxRecDepth 16384
set_option pp.maxSteps 5000
set_option pp.deepTerms false

noncomputable section

namespace Cert.Interleave.Body

open Idealize.ShloMosaic Idealize.ShloMosaic.ValueIdx
open Cert.KernelIdeal Cert.KernelIdeal.Gen Cert.KernelIdeal.GenP

variable {F : FTy → Type} [FloatOps F]

/-- The 8 × 128 × 128 view of a block of numbers reads (row, sub-row, lane) at position `sub-row · 128 + lane` of the row. -/
theorem view_apply (x0 : Vec F S8x1x16384 .f32) (r : Fin 8) (s l : Fin 128) :
    k0_pay2 x0 (ix3 r s l) = x0 (ix3 r 0 ⟨s.val * 128 + l.val, by omega⟩) := by
  unfold k0_pay2
  refine (shapeCast_apply _ _ (ix3 r s l) (ix2 r ⟨s.val * 128 + l.val, by omega⟩) ?_).trans ?_
  · rw [Shape.rowMajor_val_two, Shape.rowMajor_val_three]
    show r.val * 16384 + (s.val * 128 + l.val) = (r.val * 128 + s.val) * 128 + l.val
    omega
  · refine shapeCast_apply _ _ _ (ix3 r 0 ⟨s.val * 128 + l.val, by omega⟩) ?_
    rw [Shape.rowMajor_val_two, Shape.rowMajor_val_three]
    show (r.val * 1 + 0) * 16384 + (s.val * 128 + l.val) = r.val * 16384 + (s.val * 128 + l.val)
    omega

/-- The clamped index words in the same view: where the word names a position of the row, the word itself. -/
theorem words_apply (x1 : Vec F S8x1x16384 .i32) (r : Fin 8) (s l : Fin 128)
    (h : (x1 (ix3 r 0 ⟨s.val * 128 + l.val, by omega⟩)).toNat < 16384) :
    k0_pay3 x1 (ix3 r s l) = x1 (ix3 r 0 ⟨s.val * 128 + l.val, by omega⟩) := by
  unfold k0_pay3
  refine (shapeCast_apply _ _ (ix3 r s l) (ix2 r ⟨s.val * 128 + l.val, by omega⟩) ?_).trans ?_
  · rw [Shape.rowMajor_val_two, Shape.rowMajor_val_three]
    show r.val * 16384 + (s.val * 128 + l.val) = (r.val * 128 + s.val) * 128 + l.val
    omega
  · show IntOp.minsi 16383#32 (IntOp.maxsi 0#32 (shapeCast S8x16384 x1 _ (ix2 r ⟨s.val * 128 + l.val, by omega⟩))) = _
    rw [shapeCast_apply x1 _ (ix2 r ⟨s.val * 128 + l.val, by omega⟩) (ix3 r 0 ⟨s.val * 128 + l.val, by omega⟩) (by
      rw [Shape.rowMajor_val_two, Shape.rowMajor_val_three]
      show (r.val * 1 + 0) * 16384 + (s.val * 128 + l.val) = r.val * 16384 + (s.val * 128 + l.val)
      omega)]
    exact Words.clamp h

/-- The lane words are never negative: they are the low seven bits of a word. -/
theorem lane_not_neg (x1 : Vec F S8x1x16384 .i32) (y : S8x128x128.Idx) : IntOp.cmpi .slt (k0_pay5 x1 y) 0#32 = 0#1 := by
  unfold k0_pay5
  exact Words.and127_not_neg _

/-- THE BLOCK: for index words that name positions of the row, position `c` of row `r` of the output block holds the
    number of row `r` of the input block at position `x1[r, c]`. -/
theorem body_eq (x0 : Vec F S8x1x16384 .f32) (x1 : Vec F S8x1x16384 .i32) (h : ∀ y, (x1 y).toNat < 16384) :
    out0_2 x0 x1 = fun y => x0 (ix3 (y 0) (y 1) ⟨(x1 y).toNat % 16384, Nat.mod_lt _ (by decide)⟩) := by
  have hz : (![0, 0, 0] : Fin S8x1x16384.rank → Nat) = fun _ => 0 := by
    funext a; fin_cases a <;> rfl
  funext y
  obtain ⟨r, o, c, rfl⟩ : ∃ (r : Fin 8) (o : Fin 1) (c : Fin 16384), y = ix3 r o c := ⟨y 0, y 1, y 2, eq_ix3 y⟩
  obtain rfl : o = 0 := Subsingleton.elim _ _
  have hs : c.val / 128 < 128 := by have := c.isLt; omega
  have hl : c.val % 128 < 128 := Nat.mod_lt _ (by decide)
  have hc : (⟨c.val / 128, hs⟩ : Fin 128).val * 128 + (⟨c.val % 128, hl⟩ : Fin 128).val = c.val := Words.div_mod_128 c.val
  have hcf : (⟨(⟨c.val / 128, hs⟩ : Fin 128).val * 128 + (⟨c.val % 128, hl⟩ : Fin 128).val, by omega⟩ : Fin 16384) = c := Fin.ext hc
  -- the word at this position, and its two halves
  have hw := h (ix3 r 0 c)
  have hword : k0_pay3 x1 (ix3 r ⟨c.val / 128, hs⟩ ⟨c.val % 128, hl⟩) = x1 (ix3 r 0 c) := by
    have e := words_apply x1 r ⟨c.val / 128, hs⟩ ⟨c.val % 128, hl⟩ (by rw [hcf]; exact hw)
    rw [hcf] at e; exact e
  unfold out0_2
  rw [View.canon_unit_zero hz]
  simp only [View.ld_unit_zero (S := S8x1x16384) hz]
  dsimp only [k0_pay1,
    k0_pay6, k0_pay7, k0_pay8, k0_pay9, k0_pay10, k0_pay11, k0_pay12, k0_pay13, k0_pay14, k0_pay15, k0_pay16, k0_pay17,
    k0_pay18, k0_pay19, k0_pay20, k0_pay21, k0_pay22, k0_pay23, k0_pay24, k0_pay25, k0_pay26, k0_pay27, k0_pay28, k0_pay29,
    k0_pay30, k0_pay31, k0_pay32, k0_pay33, k0_pay34, k0_pay35, k0_pay36, k0_pay37, k0_pay38, k0_pay39, k0_pay40, k0_pay41,
    k0_pay42, k0_pay43, k0_pay44, k0_pay45, k0_pay46, k0_pay47, k0_pay48, k0_pay49, k0_pay50, k0_pay51, k0_pay52, k0_pay53,
    k0_pay54, k0_pay55, k0_pay56, k0_pay57, k0_pay58, k0_pay59, k0_pay60, k0_pay61, k0_pay62, k0_pay63, k0_pay64, k0_pay65,
    k0_pay66, k0_pay67, k0_pay68, k0_pay69, k0_pay70, k0_pay71, k0_pay72, k0_pay73, k0_pay74, k0_pay75, k0_pay76, k0_pay77,
    k0_pay78, k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100, k0_pay101,
    k0_pay102, k0_pay103, k0_pay104, k0_pay105, k0_pay106, k0_pay107, k0_pay108, k0_pay109, k0_pay110]
  -- the stored block is the selection's result, seen as 8 × 16384 and then with the unit middle axis
  refine (shapeCast_apply _ _ (ix3 r 0 c) (ix2 r c) (by
    rw [Shape.rowMajor_val_two, Shape.rowMajor_val_three]
    show r.val * 16384 + c.val = (r.val * 1 + 0) * 16384 + c.val
    omega)).trans ?_
  refine (shapeCast_apply _ _ (ix2 r c) (ix3 r ⟨c.val / 128, hs⟩ ⟨c.val % 128, hl⟩) (by
    rw [Shape.rowMajor_val_two, Shape.rowMajor_val_three]
    show (r.val * 128 + c.val / 128) * 128 + c.val % 128 = r.val * 16384 + c.val
    omega)).trans ?_
  -- the selection: 128 steps, each keeping the invariant
  refine (Step.inv_all (k0_pay2 x0) (k0_pay4 x1) (k0_pay5 x1) _ ?_ ?_ _).trans ?_
  · iterate 128 (refine Step.inv_step _ _ _ (lane_not_neg x1) _ (by decide) _ _ _ _ _ _ _ _ ?_)
    exact Step.inv_zero _ _ _ _
  · -- every sub-row word is below 128
    intro z
    obtain ⟨p, s, l, rfl⟩ : ∃ (p : Fin 8) (s l : Fin 128), z = ix3 p s l := ⟨z 0, z 1, z 2, eq_ix3 z⟩
    have hwz := h (ix3 p 0 ⟨s.val * 128 + l.val, by omega⟩)
    show (IntOp.shrsi .vector (k0_pay3 x1 (ix3 p s l)) 7#32).toNat < 128
    rw [words_apply x1 p s l hwz, Words.shr7_toNat _ hwz]
    omega
  · -- the entry the selection found is the entry at the word's position
    have hhi : (k0_pay4 x1 (ix3 r ⟨c.val / 128, hs⟩ ⟨c.val % 128, hl⟩)).toNat = (x1 (ix3 r 0 c)).toNat / 128 := by
      show (IntOp.shrsi .vector (k0_pay3 x1 _) 7#32).toNat = _
      rw [hword, Words.shr7_toNat _ hw]
    have hlo : (k0_pay5 x1 (ix3 r ⟨c.val / 128, hs⟩ ⟨c.val % 128, hl⟩)).toNat = (x1 (ix3 r 0 c)).toNat % 128 := by
      show (IntOp.andi (k0_pay3 x1 _) 127#32).toNat = _
      rw [hword, Words.and127_toNat]
    refine (view_apply x0 r _ _).trans (congrArg x0 (funext fun a => ?_))
    match a with
    | ⟨0, _⟩ => rfl
    | ⟨1, _⟩ => rfl
    | ⟨2, _⟩ =>
      refine Fin.ext ?_
      show (k0_pay4 x1 _).toNat % 128 * 128 + (k0_pay5 x1 _).toNat % 128 = (x1 (ix3 r 0 c)).toNat % 16384
      rw [hhi, hlo]
      omega

end Cert.Interleave.Body

end
-- ==== Proof.KernelValue.lean ====
/-
  The kernel program's result is the interleaved array.

  The program gives both arguments a unit middle axis (numbers and index words become 1024 × 1 × 16384, entry
  `(b, 0, l)` being the argument's entry at row `b`, position `l`), runs the body once per block of 8 whole rows
  (128 grid points, point `t` on rows `8 t … 8 t + 7`), and moves the unit axis of what the region leaves back to the
  end. On a block whose index words name positions of their rows the body leaves, at position `l` of row `r`, the
  number of row `r` at the position the word at `(r, l)` names (Body.lean). Every block of a staged array is the
  restriction of the whole array to its 8 rows, so what point `t` writes back is block `t` of ONE function of the
  staged arrays (`rowPick`: row by row, pick by index word); the 128 blocks cover the array, so the region leaves
  `rowPick` of the staged arrays; read through the three changes of axes, that is the interleaved array `G` of the
  two arguments.
-/
import proofs.«407096_j67465346286283_2_alg».proof.Proof.Body
import proofs.«407096_j67465346286283_2_alg».proof.Proof.Spec
import Idealize.ShloMosaic.Lib.ValueIdx
import Idealize.ShloMosaic.Lib.Pipeline.Value
import Idealize.ShloMosaic.Lib.StableHlo.Run

set_option maxRecDepth 16384

noncomputable section

namespace Cert.Interleave.KernelValue

open Idealize.ShloMosaic Idealize.ShloMosaic.TcCoe Idealize.ShloMosaic.ValueIdx Idealize.SL.Sem
open Cert.KernelIdeal Cert.KernelIdeal.Gen Cert.KernelIdeal.GenP

variable {F : FTy → Type} [FloatOps F]

/-! ## The arrays the region finds

The program first moves the unit axis of the numbers to the middle and gives the index words a unit middle axis:
both arrays become 1024 × 1 × 16384, entry `(b, 0, l)` being the argument's entry at row `b`, position `l`. -/

/-- The numbers as the region finds them: the argument read in row-major order at 1024 × 1 × 16384. -/
theorem staged_numbers (m : (ℓ : Loc nD τ sig) → Buf (Elt F) ℓ) (c : Dev nD) :
    (V m c main_v0 : S1024x1x16384.Idx → Elt F .f32)
      = shapeCast S1024x1x16384 (m ((c : Thread nD τ).loc main_arg0) : S1024x16384x1.Idx → Elt F .f32) shapeCasts_S1024x16384x1_S1024x1x16384 := by
  show StableHlo.after hostOps0 (fun b => m (c, b)) (Proc.devRef .tc main_v0) = _
  after_results
  rfl

/-- The index words as the region finds them: the argument read in row-major order at 1024 × 1 × 16384. -/
theorem staged_words (m : (ℓ : Loc nD τ sig) → Buf (Elt F) ℓ) (c : Dev nD) :
    (V m c main_v1 : S1024x1x16384.Idx → BitVec 32)
      = shapeCast S1024x1x16384 (m ((c : Thread nD τ).loc main_arg1) : S1024x16384.Idx → BitVec 32) shapeCasts_S1024x16384_S1024x1x16384 := by
  show StableHlo.after hostOps0 (fun b => m (c, b)) (Proc.devRef .tc main_v1) = _
  after_results
  rfl

/-- Entry `(b, 0, l)` of the staged numbers is the argument's entry `(b, l, 0)`: the same row-major position. -/
theorem staged_numbers_apply (m : (ℓ : Loc nD τ sig) → Buf (Elt F) ℓ) (c : Dev nD) (b : Fin 1024) (l : Fin 16384) :
    (V m c main_v0 : S1024x1x16384.Idx → Elt F .f32) (ix3 b 0 l)
      = (m ((c : Thread nD τ).loc main_arg0) : S1024x16384x1.Idx → Elt F .f32) (ix3 b l 0) := by
  refine (congrFun (staged_numbers m c) (ix3 b 0 l)).trans ?_
  refine shapeCast_apply _ _ (ix3 b 0 l) (ix3 b l 0) ?_
  rw [Shape.rowMajor_val_three, Shape.rowMajor_val_three]
  show (b.val * 16384 + l.val) * 1 + 0 = (b.val * 1 + 0) * 16384 + l.val
  omega

/-- Entry `(b, 0, l)` of the staged index words is the argument's word `(b, l)`. -/
theorem staged_words_apply (m : (ℓ : Loc nD τ sig) → Buf (Elt F) ℓ) (c : Dev nD) (b : Fin 1024) (l : Fin 16384) :
    (V m c main_v1 : S1024x1x16384.Idx → BitVec 32) (ix3 b 0 l)
      = (m ((c : Thread nD τ).loc main_arg1) : S1024x16384.Idx → BitVec 32) (ix2 b l) := by
  refine (congrFun (staged_words m c) (ix3 b 0 l)).trans ?_
  refine shapeCast_apply _ _ (ix3 b 0 l) (ix2 b l) ?_
  rw [Shape.rowMajor_val_two, Shape.rowMajor_val_three]
  show b.val * 16384 + l.val = (b.val * 1 + 0) * 16384 + l.val
  omega

/-! ## One grid point's blocks

Grid point `t` of the 128 stages rows `8 t … 8 t + 7` of each of the three arrays, whole rows. -/

/-- The block index of each window at point `t` is `(t, 0, 0)` (decided over the 128 points). -/
theorem index_numbers : ∀ t : Fin cfg0.N, win0_0.index t (0 : Fin 3) = t.val ∧ win0_0.index t (1 : Fin 3) = 0 ∧ win0_0.index t (2 : Fin 3) = 0 :=
  (by decide +kernel : ∀ t : Fin grid0.N, _)
theorem index_words : ∀ t : Fin cfg0.N, win0_1.index t (0 : Fin 3) = t.val ∧ win0_1.index t (1 : Fin 3) = 0 ∧ win0_1.index t (2 : Fin 3) = 0 :=
  (by decide +kernel : ∀ t : Fin grid0.N, _)
theorem index_result : ∀ t : Fin cfg0.N, win0_2.index t (0 : Fin 3) = t.val ∧ win0_2.index t (1 : Fin 3) = 0 ∧ win0_2.index t (2 : Fin 3) = 0 :=
  (by decide +kernel : ∀ t : Fin grid0.N, _)

/-- Row `r` of the blocks at point `t` is row `8 t + r` of the batch. -/
def rowAt (t : Fin cfg0.N) (r : Fin 8) : Fin 1024 :=
  ⟨t.val * 8 + r.val, by have hN : cfg0.N = 128 := N_0; have ht := t.isLt; have hr := r.isLt; omega⟩

theorem rowAt_val (t : Fin cfg0.N) (r : Fin 8) : (rowAt t r).val = t.val * 8 + r.val := rfl

/-- The block of numbers at point `t`, entry by entry. -/
theorem numbers_block (m : (ℓ : Loc nD τ sig) → Buf (Elt F) ℓ) (c : Dev nD) (t : Fin cfg0.N) (r : Fin 8) (l : Fin 16384) :
    (iblk m c 0 t : Vec F S8x1x16384 .f32) (ix3 r 0 l) = (V m c main_v0 : S1024x1x16384.Idx → Elt F .f32) (ix3 (rowAt t r) 0 l) := by
  obtain ⟨e0, e1, e2⟩ := index_numbers t
  unfold iblk
  rw [View.read_apply]
  show V m c main_v0 _ = V m c main_v0 _
  refine congrArg (V m c main_v0 : S1024x1x16384.Idx → Elt F .f32) (funext fun a => Fin.ext ?_)
  match a with
  | ⟨0, _⟩ => show win0_0.index t (0 : Fin 3) * 8 + 1 * r.val = t.val * 8 + r.val; rw [e0]; omega
  | ⟨1, _⟩ => show win0_0.index t (1 : Fin 3) * 1 + 1 * 0 = 0; rw [e1]
  | ⟨2, _⟩ => show win0_0.index t (2 : Fin 3) * 16384 + 1 * l.val = l.val; rw [e2]; omega

/-- The block of index words at point `t`, entry by entry. -/
theorem words_block (m : (ℓ : Loc nD τ sig) → Buf (Elt F) ℓ) (c : Dev nD) (t : Fin cfg0.N) (r : Fin 8) (l : Fin 16384) :
    (iblk m c 1 t : Vec F S8x1x16384 .i32) (ix3 r 0 l) = (V m c main_v1 : S1024x1x16384.Idx → BitVec 32) (ix3 (rowAt t r) 0 l) := by
  obtain ⟨e0, e1, e2⟩ := index_words t
  unfold iblk
  rw [View.read_apply]
  show V m c main_v1 _ = V m c main_v1 _
  refine congrArg (V m c main_v1 : S1024x1x16384.Idx → BitVec 32) (funext fun a => Fin.ext ?_)
  match a with
  | ⟨0, _⟩ => show win0_1.index t (0 : Fin 3) * 8 + 1 * r.val = t.val * 8 + r.val; rw [e0]; omega
  | ⟨1, _⟩ => show win0_1.index t (1 : Fin 3) * 1 + 1 * 0 = 0; rw [e1]
  | ⟨2, _⟩ => show win0_1.index t (2 : Fin 3) * 16384 + 1 * l.val = l.val; rw [e2]; omega

/-- Every index word of a block names a position of its row, because every word of the argument does. -/
theorem words_block_lt (m : (ℓ : Loc nD τ sig) → Buf (Elt F) ℓ) (c : Dev nD)
    (hr : InRange (m ((c.tc : Thread nD τ).loc main_arg1))) (t : Fin cfg0.N) (y : S8x1x16384.Idx) :
    ((iblk m c 1 t : Vec F S8x1x16384 .i32) y).toNat < 16384 := by
  obtain ⟨r, o, l, rfl⟩ : ∃ (r : Fin 8) (o : Fin 1) (l : Fin 16384), y = ix3 r o l := ⟨y 0, y 1, y 2, eq_ix3 y⟩
  obtain rfl : o = 0 := Subsingleton.elim _ _
  rw [words_block m c t r l, staged_words_apply m c (rowAt t r) l]
  exact hr (ix2 (rowAt t r) l)

/-! ## From the blocks to the array -/

/-- Row by row over the staged arrays: position `l` of row `b` takes the number of row `b` at the position the index
    word at `(b, 0, l)` names. -/
def rowPick (a : S1024x1x16384.Idx → Elt F .f32) (p : S1024x1x16384.Idx → BitVec 32) : S1024x1x16384.Idx → Elt F .f32 :=
  fun i => a (ix3 (i 0) (i 1) ⟨(p i).toNat % 16384, Nat.mod_lt _ (by decide)⟩)

/-- What the body leaves at entry `(r, 0, l)` of its output block is entry `(8 t + r, 0, l)` of `rowPick` of the staged arrays. -/
theorem picked (m : (ℓ : Loc nD τ sig) → Buf (Elt F) ℓ) (c : Dev nD) (t : Fin cfg0.N) (r : Fin 8) (l : Fin 16384) :
    (iblk m c 0 t : Vec F S8x1x16384 .f32) (ix3 r 0 ⟨((iblk m c 1 t : Vec F S8x1x16384 .i32) (ix3 r 0 l)).toNat % 16384, Nat.mod_lt _ (by decide)⟩)
      = rowPick (V m c main_v0 : S1024x1x16384.Idx → Elt F .f32) (V m c main_v1 : S1024x1x16384.Idx → BitVec 32) (ix3 (rowAt t r) 0 l) := by
  rw [numbers_block m c t r, words_block m c t r l]
  rfl

/-- WHAT POINT `t` WRITES BACK is block `t` of `rowPick` of the staged arrays. -/
theorem flushed_eq (m : (ℓ : Loc nD τ sig) → Buf (Elt F) ℓ) (c : Dev nD)
    (hr : InRange (m ((c.tc : Thread nD τ).loc main_arg1))) (t : Fin cfg0.N) :
    (dats m 0 c).flushed 2 t
      = ((cfg0.win 2).blk t).view.read (Elt F) (rowPick (V m c main_v0 : S1024x1x16384.Idx → Elt F .f32) (V m c main_v1 : S1024x1x16384.Idx → BitVec 32)) := by
  show (cfg0.win 2).cut (grid0.coords t) ((dats m 0 c).after 2 t) = _
  rw [after0_2, Body.body_eq (iblk m c 0 t) (iblk m c 1 t) (words_block_lt m c hr t)]
  obtain ⟨e0, e1, e2⟩ := index_result t
  funext j
  obtain ⟨r, o, l, rfl⟩ : ∃ (r : Fin 8) (o : Fin 1) (l : Fin 16384), j = ix3 r o l := ⟨j 0, j 1, j 2, eq_ix3 j⟩
  obtain rfl : o = 0 := Subsingleton.elim _ _
  refine (picked m c t r l).trans ?_
  rw [View.read_apply]
  show rowPick (V m c main_v0 : S1024x1x16384.Idx → Elt F .f32) (V m c main_v1 : S1024x1x16384.Idx → BitVec 32) _ = rowPick (V m c main_v0 : S1024x1x16384.Idx → Elt F .f32) (V m c main_v1 : S1024x1x16384.Idx → BitVec 32) _
  refine congrArg (rowPick (V m c main_v0 : S1024x1x16384.Idx → Elt F .f32) (V m c main_v1 : S1024x1x16384.Idx → BitVec 32)) (funext fun a => Fin.ext ?_)
  match a with
  | ⟨0, _⟩ => show t.val * 8 + r.val = win0_2.index t (0 : Fin 3) * 8 + 1 * r.val; rw [e0]; omega
  | ⟨1, _⟩ => show 0 = win0_2.index t (1 : Fin 3) * 1 + 1 * 0; rw [e1]
  | ⟨2, _⟩ => show l.val = win0_2.index t (2 : Fin 3) * 16384 + 1 * l.val; rw [e2]; omega

/-- An index of the array is in point `t`'s block iff each coordinate is in the block's range on its axis. -/
theorem mem_block (t : Fin cfg0.N) (i : S1024x1x16384.Idx) :
    i ∈ ((cfg0.win 2).blk t).view.set ↔ ∀ a : Fin 3, win0_2.index t a * S8x1x16384.size a ≤ (i a).val ∧ (i a).val < win0_2.index t a * S8x1x16384.size a + S8x1x16384.size a := by
  show i ∈ ((View.whole main_v2).slice (win0_2.rect t)).set ↔ _
  rw [View.set_slice_whole, Rect.mem_set_unit]
  exact Iff.rfl

/-- Every entry of the array is written: row `b` by point `b / 8`. -/
theorem covered (i : S1024x1x16384.Idx) :
    ∃ t : Fin cfg0.N, (cfg0.win 2).flush t = true ∧ i ∈ ((cfg0.win 2).blk t).view.set := by
  have hN : cfg0.N = 128 := N_0
  have h0 : (i 0).val < 1024 := (i 0).isLt
  have h1 : (i 1).val < 1 := (i 1).isLt
  have h2 : (i 2).val < 16384 := (i 2).isLt
  obtain ⟨t, ht⟩ : ∃ t : Fin cfg0.N, t.val = (i 0).val / 8 := ⟨⟨(i 0).val / 8, by omega⟩, rfl⟩
  obtain ⟨e0, e1, e2⟩ := index_result t
  refine ⟨t, flush0_2 t, ?_⟩
  rw [mem_block]
  intro a
  match a with
  | ⟨0, _⟩ => show win0_2.index t (0 : Fin 3) * 8 ≤ (i 0).val ∧ (i 0).val < win0_2.index t (0 : Fin 3) * 8 + 8; rw [e0]; omega
  | ⟨1, _⟩ => show win0_2.index t (1 : Fin 3) * 1 ≤ (i 1).val ∧ (i 1).val < win0_2.index t (1 : Fin 3) * 1 + 1; rw [e1]; omega
  | ⟨2, _⟩ => show win0_2.index t (2 : Fin 3) * 16384 ≤ (i 2).val ∧ (i 2).val < win0_2.index t (2 : Fin 3) * 16384 + 16384; rw [e2]; omega

/-- THE ARRAY after the region: `rowPick` of the staged arrays. -/
theorem final (m : (ℓ : Loc nD τ sig) → Buf (Elt F) ℓ) (c : Dev nD)
    (hr : InRange (m ((c.tc : Thread nD τ).loc main_arg1))) :
    (dats m 0 c).arrAt 2 cfg0.N = rowPick (V m c main_v0 : S1024x1x16384.Idx → Elt F .f32) (V m c main_v1 : S1024x1x16384.Idx → BitVec 32) :=
  (dats m 0 c).arrAt_eq_of_cover 2 (rowPick (V m c main_v0 : S1024x1x16384.Idx → Elt F .f32) (V m c main_v1 : S1024x1x16384.Idx → BitVec 32))
    (fun t _ => flushed_eq m c hr t) covered

/-! ## The result

After the region the program moves the unit axis back to the end: the result's entry `(b, l, 0)` is the region's entry
`(b, 0, l)`. -/

/-- The program's result is the interleaved array of its two arguments. -/
theorem result_eq (m : (ℓ : Loc nD τ sig) → Buf (Elt F) ℓ) (c : Dev nD)
    (hr : InRange (m ((c.tc : Thread nD τ).loc main_arg1))) :
    Pipeline.afterTail₀ cfgs (dats m) 0 (V0 m) [hostOps1] c main_v3
      = G (m ((c.tc : Thread nD τ).loc main_arg0)) (m ((c.tc : Thread nD τ).loc main_arg1)) := by
  have e : Pipeline.withArrays spec0 c (V0 m c) (fun w => (dats m 0 c).arrAt w cfg0.N) (Proc.devRef .tc main_v2)
      = rowPick (V m c main_v0 : S1024x1x16384.Idx → Elt F .f32) (V m c main_v1 : S1024x1x16384.Idx → BitVec 32) :=
    (Pipeline.withArrays_arr spec0 launch0.win.arr_inj c _ _ 2).trans (final m c hr)
  unfold Pipeline.afterTail₀
  show StableHlo.after hostOps1 _ (Proc.devRef .tc main_v3) = _
  after_results
  funext i
  obtain ⟨b, l, o, rfl⟩ : ∃ (b : Fin 1024) (l : Fin 16384) (o : Fin 1), i = ix3 b l o := ⟨i 0, i 1, i 2, eq_ix3 i⟩
  obtain rfl : o = 0 := Subsingleton.elim _ _
  rw [G_apply]
  show shapeCast S1024x16384x1 (Pipeline.withArrays spec0 c (V0 m c) (fun w => (dats m 0 c).arrAt w cfg0.N) (Proc.devRef .tc main_v2)) shapeCasts_S1024x1x16384_S1024x16384x1 (ix3 b l 0) = _
  refine (shapeCast_apply _ _ (ix3 b l 0) (ix3 b 0 l) ?_).trans ?_
  · rw [Shape.rowMajor_val_three, Shape.rowMajor_val_three]
    show (b.val * 1 + 0) * 16384 + l.val = (b.val * 16384 + l.val) * 1 + 0
    omega
  refine (congrFun e (ix3 b 0 l)).trans ?_
  show (V m c main_v0 : S1024x1x16384.Idx → Elt F .f32) (ix3 b 0 ⟨((V m c main_v1 : S1024x1x16384.Idx → BitVec 32) (ix3 b 0 l)).toNat % 16384, Nat.mod_lt _ (by decide)⟩) = _
  rw [staged_words_apply m c b l, staged_numbers_apply m c b]

/-- From any memory whose index words name positions of their rows, every weakly fair execution of the kernel's program
    terminates with its result at the interleaved array of the two arguments, the arguments unchanged. -/
theorem kernel_run (m : (ℓ : Loc nD τ sig) → Buf (Elt F) ℓ) (ρ : Dev nD → PrngReg)
    (hr : ∀ c : Dev nD, InRange (m ((c.tc : Thread nD τ).loc main_arg1))) :
    θ_run defs (onTc (τ := τ) (main (F := F))) ⟨m, fun _ => 0, ρ⟩ (fun r => ∀ c : Dev nD,
      r.2.mem ((c.tc : Thread nD τ).loc main_v3) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨((h c).2 main_v3 (Pipeline.mem_restRefs_of main_v3 (by decide) (by decide))).trans (result_eq m c (hr c)),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.Interleave.KernelValue

end
-- ==== Proof.RefValue.lean ====
/-
  The reference program's result is the interleaved array.

  The reference reads, for every (row `b`, position `l`), the index word `w = perm[b, l]`; it wraps a negative word round
  (`w + 16384`), tests whether the wrapped word lies in `[0, 16383]`, gathers from row `b` of `x` at the wrapped word clamped
  into `[0, 16383]`, and keeps the gathered number where the test passed, a not-a-number elsewhere. For a word that
  names a position of the row none of this does anything: it is not negative, so it is not wrapped; the test passes
  (and the "and" of the test over the unit axis is still 1); the clamp keeps it; so the result at `(b, l, 0)` is the
  number of row `b` at position `w`.
-/
import proofs.«407096_j67465346286283_2_alg».proof.Proof.ReadReferenceIdeal
import proofs.«407096_j67465346286283_2_alg».proof.Proof.Spec
import proofs.«407096_j67465346286283_2_alg».proof.Proof.Words
import Idealize.ShloMosaic.Lib.ValueIdx
import Idealize.ShloMosaic.Lib.Pipeline.Value
import Idealize.ShloMosaic.PureOps.Reduce
import Idealize.ShloMosaic.Lib.Affine

set_option pp.maxSteps 5000
set_option pp.deepTerms false

noncomputable section

namespace Cert.Interleave.RefValue

open Idealize.ShloMosaic Idealize.ShloMosaic.ValueIdx
open Cert.ReferenceIdeal Cert.ReferenceIdeal.Gen Cert.ReferenceIdeal.ReadP

variable {F : FTy → Type} [FloatOps F]

/-- The index word under a position of the result: the word of its row and position. -/
theorem word_apply (x1 : (⟨S1024x16384, .i32⟩ : BufTy).Contents (Elt F)) (i : S1024x16384x1.Idx) :
    val_main_v0 (F := F) x1 i = x1 (ix2 (i 0) (i 1)) := by
  rw [val_main_v0_apply]
  refine congrArg x1 (funext fun a => ?_)
  match a with
  | ⟨0, _⟩ => rfl
  | ⟨1, _⟩ => rfl

/-- A word that names a position is not negative, so the wrap-round leaves it alone. -/
theorem wrapped_apply (x1 : (⟨S1024x16384, .i32⟩ : BufTy).Contents (Elt F)) (h : InRange x1) (i : S1024x16384x1.Idx) :
    val_main_call0_v4 (F := F) x1 i = x1 (ix2 (i 0) (i 1)) := by
  rw [val_main_call0_v4_apply, val_main_call0_v1_apply, val_main_call0_v0_apply, val_main_call0_c_apply, word_apply,
    Words.not_neg (h _)]
  exact select_zero _ _

/-- The range test passes at every position. -/
theorem test_apply (x1 : (⟨S1024x16384, .i32⟩ : BufTy).Contents (Elt F)) (h : InRange x1) (i : S1024x16384x1.Idx) :
    val_main_call0_v10 (F := F) x1 i = 1#1 := by
  rw [val_main_call0_v10_apply, val_main_call0_v6_apply, val_main_call0_v9_apply, wrapped_apply x1 h,
    val_main_call0_v5_apply, val_main_call0_c_2_apply, val_main_call0_v8_apply, val_main_call0_v7_apply,
    val_main_call0_c_1_apply, Words.sge_zero (h _), Words.sle_last (h _)]
  exact IntOp.andi_eq_one.2 ⟨rfl, rfl⟩

/-- A left fold by "and" over ones, from one, is one. -/
theorem foldl_and_ones {ι : Type} (l : List ι) : l.foldl (fun r (_ : ι) => IntOp.andi r 1#1) (1#1 : BitVec 1) = 1#1 := by
  induction l with
  | nil => rfl
  | cons a l ih =>
    rw [List.foldl_cons, show IntOp.andi (1#1 : BitVec 1) 1#1 = 1#1 from by decide]
    exact ih

/-- The test reduced by "and" over the unit axis is still one at every (row, position). -/
theorem test_all_apply (x1 : (⟨S1024x16384, .i32⟩ : BufTy).Contents (Elt F)) (h : InRange x1) (j : S1024x16384.Idx) :
    val_main_call0_v11 (F := F) x1 j = 1#1 := by
  unfold val_main_call0_v11
  rw [show val_main_call0_v10 (F := F) x1 = fun _ => 1#1 from funext (test_apply x1 h), Host.reduce_eq_foldl]
  exact foldl_and_ones _

/-- The gather's dimension numbers: operand, start indices and result all of shape 1024 × 16384 × 1; axis 0 a batching axis
    on both sides, axis 1 the collapsed axis the start index names, axis 2 the unit offset axis. -/
abbrev GD : GatherDims S1024x16384x1 S1024x16384x1 S1024x16384x1 :=
  gather_S1024x16384x1_S1024x16384x1_S1024x16384x1_2_1_0_0_1_2_111

/-- The last coordinate of an index of this shape is 0: the axis has one entry. -/
theorem last_zero (i : S1024x16384x1.Idx) : (i 2).val = 0 := by
  have := (i 2).isLt
  simp at this
  omega

/-- On the batching axis the operand index is the result's own row. -/
theorem gather_axis0 (idx : IVec S1024x16384x1 32) (i : S1024x16384x1.Idx) :
    GD.start i idx (0 : Fin 3) + GD.batchCoord i (0 : Fin 3) + GD.offCoord i (0 : Fin 3) = (i 0).val := by
  rw [GatherDims.start_batching GD i idx (0 : Fin 3) (List.mem_singleton.mpr rfl),
    GatherDims.offCoord_eq_zero GD i (0 : Fin 3)
      (fun hm => ((GatherDims.mem_sKept GD (0 : Fin 3)).1 hm).2 (List.mem_singleton.mpr rfl))]
  simp only [Nat.zero_add, Nat.add_zero]
  rfl

/-- On the gathered axis it is the start index at the same (row, position), read signed and clamped into `[0, 16383]`. -/
theorem gather_axis1 (idx : IVec S1024x16384x1 32) (i : S1024x16384x1.Idx) :
    GD.start i idx (1 : Fin 3) + GD.batchCoord i (1 : Fin 3) + GD.offCoord i (1 : Fin 3)
      = min (idx i).toInt.toNat (16384 - 1) := by
  rw [GatherDims.batchCoord_eq_zero GD i (1 : Fin 3) (fun hm => absurd (List.mem_singleton.1 hm) (by decide)),
    GatherDims.offCoord_eq_zero GD i (1 : Fin 3)
      (fun hm => ((GatherDims.mem_sKept GD (1 : Fin 3)).1 hm).1 (List.mem_singleton.mpr rfl))]
  simp only [Nat.add_zero]
  unfold GatherDims.start
  rw [dif_pos (show (1 : Fin 3) ∈ GD.startIndexMap from List.mem_singleton.mpr rfl)]
  have hsi : GD.siIdx i ⟨List.idxOf (1 : Fin 3) GD.startIndexMap,
      List.idxOf_lt_length_iff.2 (List.mem_singleton.mpr rfl)⟩ = i := by
    funext b
    refine Fin.ext ?_
    match b with
    | ⟨0, _⟩ => rfl
    | ⟨1, _⟩ => rfl
    | ⟨2, _⟩ => exact (last_zero i).symm
  rw [hsi]
  rfl

/-- On the unit offset axis it is the result's own (zero) coordinate. -/
theorem gather_axis2 (idx : IVec S1024x16384x1 32) (i : S1024x16384x1.Idx) :
    GD.start i idx (2 : Fin 3) + GD.batchCoord i (2 : Fin 3) + GD.offCoord i (2 : Fin 3) = (i 2).val := by
  rw [GatherDims.batchCoord_eq_zero GD i (2 : Fin 3) (fun hm => absurd (List.mem_singleton.1 hm) (by decide))]
  unfold GatherDims.start
  rw [dif_neg (show ¬ (2 : Fin 3) ∈ GD.startIndexMap from fun hm => absurd (List.mem_singleton.1 hm) (by decide))]
  simp only [Nat.zero_add, Nat.add_zero]
  rfl

/-- The batched gather along the position axis reads, at `(b, l, o)`, row `b` of its operand at the start index
    `idx[b, l, o]` read signed and clamped into `[0, 16383]`. -/
theorem gather_apply (x0 : (⟨S1024x16384x1, .f32⟩ : BufTy).Contents (Elt F)) (idx : IVec S1024x16384x1 32) (i : S1024x16384x1.Idx) :
    Host.gather GD x0 idx i = x0 (ix3 (i 0) ⟨min (idx i).toInt.toNat (16384 - 1), by omega⟩ (i 2)) := by
  unfold Host.gather
  refine congrArg x0 (funext fun a => Fin.ext ?_)
  show GD.start i idx a + GD.batchCoord i a + GD.offCoord i a = _
  match a with
  | ⟨0, _⟩ => exact gather_axis0 idx i
  | ⟨1, _⟩ => exact gather_axis1 idx i
  | ⟨2, _⟩ => exact gather_axis2 idx i

/-- For index words that name positions of their rows, the reference's last stage is the interleaved array. -/
theorem ref_eq (x0 : (⟨S1024x16384x1, .f32⟩ : BufTy).Contents (Elt F)) (x1 : (⟨S1024x16384, .i32⟩ : BufTy).Contents (Elt F))
    (h : InRange x1) :
    Cert.ReferenceIdeal.ReadP.val_main_v1 (F := F) x0 x1 = G x0 x1 := by
  funext i
  rw [val_main_v1_apply, val_main_call0_v13_apply, test_all_apply x1 h, select_one]
  unfold val_main_call0_v12
  rw [gather_apply]
  refine congrArg x0 (funext fun a => ?_)
  match a with
  | ⟨0, _⟩ => rfl
  | ⟨1, _⟩ =>
    refine Fin.ext ?_
    show min (val_main_call0_v4 (F := F) x1 i).toInt.toNat (16384 - 1) = (x1 (ix2 (i 0) (i 1))).toNat % 16384
    rw [wrapped_apply x1 h, Words.clamp_nat (h _), Nat.mod_eq_of_lt (h _)]
  | ⟨2, _⟩ => rfl

end Cert.Interleave.RefValue

end
-- ==== Proof.lean ====
/-
  The interleaver `out[b, l, 0] = x[b, perm[b, l], 0]`: a Pallas kernel that resolves each index word by a 128-way
  selection over the sub-rows of 128 lanes of its row, against `jnp.take_along_axis`.

  Both programs only MOVE numbers: no arithmetic is done on `x`, so nothing here needs the numbers to be finite, and the
  two results are equal entry by entry as extended reals because they are the same entries of `x`. What the two programs
  do with an index word OUTSIDE `[0, 16383]` differs (the kernel clamps it; the reference wraps a negative word round
  and fills with a not-a-number past the end), so the precondition's range conjunct `0 ≤ perm < 16384` is what the
  value claim rests on: under it the kernel's result (KernelValue.lean, over Body.lean's selection) and the
  reference's (RefValue.lean) are both the one function `G x perm` of Spec.lean.

  The three frames: the kernel's two programs by their frame certificates, the reference's by its run with the result
  dropped. The idealization rewrote nothing, so `preserves` is trivial.
-/
import proofs.«407096_j67465346286283_2_alg».proof.Defs
import proofs.«407096_j67465346286283_2_alg».proof.Proof.Gen.Kernel
import proofs.«407096_j67465346286283_2_alg».proof.Proof.Gen.KernelIdeal
import proofs.«407096_j67465346286283_2_alg».proof.Proof.Gen.ReferenceIdeal
import proofs.«407096_j67465346286283_2_alg».proof.Proof.Gen.Pre_finite_inputs
import proofs.«407096_j67465346286283_2_alg».proof.Proof.FrameKernel
import proofs.«407096_j67465346286283_2_alg».proof.Proof.FrameKernelIdeal
import proofs.«407096_j67465346286283_2_alg».proof.Proof.RunReferenceIdeal
import proofs.«407096_j67465346286283_2_alg».proof.Proof.ReadReferenceIdeal
import proofs.«407096_j67465346286283_2_alg».proof.Proof.PreRange
import proofs.«407096_j67465346286283_2_alg».proof.Proof.KernelValue
import proofs.«407096_j67465346286283_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The precondition on the kernel's memory gives the range of its index words, on every device. -/
theorem range_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Interleave.InRange (m ((c.tc : Thread Cert.KernelIdeal.nD Cert.KernelIdeal.τ).loc Cert.KernelIdeal.main_arg1)) :=
  Cert.Interleave.PreRange.inRange_of_pre (F := Ideal) _ _ (hpre c)

/-- From memories that agree on the arguments, the kernel's run ends at `G x perm` (KernelValue) and the reference's at
    its last stage of the same arguments (its run, read back), which is `G x perm` too (RefValue). -/
theorem algebraic : Cert.algebraic_KernelIdeal_ReferenceIdeal := by
  intro m ρ m' ρ' hpre hagree
  refine ⟨_, Cert.Interleave.KernelValue.kernel_run (F := Ideal) m ρ (range_of_pre m hpre), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v1_eq, (hagree c).1, (hagree c).2]
  exact Cert.Interleave.RefValue.ref_eq (F := Ideal) _ _ (range_of_pre m hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
